-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S128x64 .f32) (main_arg9 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x64 .f32) (main_arg9 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S2000x128 : Shape := ⟨2, ![2000, 128]⟩
abbrev S1x64 : Shape := ⟨2, ![1, 64]⟩
abbrev S100000x64 : Shape := ⟨2, ![100000, 64]⟩
abbrev S2000x64 : Shape := ⟨2, ![2000, 64]⟩

abbrev nBuf : Space → Nat
  | .hbm => 73
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x64, .f32⟩
  | .hbm, ⟨9, _⟩ => ⟨S64, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S1x1600000, .i32⟩
  | .hbm, ⟨42, _⟩ => ⟨S1600000, .i32⟩
  | .hbm, ⟨43, _⟩ => ⟨S1x1600000, .i32⟩
  | .hbm, ⟨44, _⟩ => ⟨S1600000, .i32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S_, .f32⟩
  | .hbm, ⟨59, _⟩ => ⟨S1600000, .f32⟩
  | .hbm, ⟨60, _⟩ => ⟨S_, .f32⟩
  | .hbm, ⟨61, _⟩ => ⟨S100000, .f32⟩
  | .hbm, ⟨62, _⟩ => ⟨S1600000x1, .i32⟩
  | .hbm, ⟨63, _⟩ => ⟨S100000, .f32⟩
  | .hbm, ⟨64, _⟩ => ⟨S_, .f32⟩
  | .hbm, ⟨65, _⟩ => ⟨S100000, .f32⟩
  | .hbm, ⟨66, _⟩ => ⟨S100000, .f32⟩
  | .hbm, ⟨67, _⟩ => ⟨S100000x1, .f32⟩
  | .hbm, ⟨68, _⟩ => ⟨S100000x128, .f32⟩
  | .hbm, ⟨69, _⟩ => ⟨S100000x128, .f32⟩
  | .hbm, ⟨70, _⟩ => ⟨S1x128, .f32⟩
  | .hbm, ⟨71, _⟩ => ⟨S1x64, .f32⟩
  | .hbm, ⟨72, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S128x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x64.size a ≤ S100000x64.size a
  hwx1_7 : ∀ i : grid1.Coords, EltTy.bits .f32 = 32 ∨ (Rect.block (s := S100000x64) S2000x64.size (cc1_transform_7 i) (hinb1_7 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v47) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v49) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v50) S2000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 90
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x64, .f32⟩
  | .hbm, ⟨9, _⟩ => ⟨S64, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S1x1600000, .i32⟩
  | .hbm, ⟨49, _⟩ => ⟨S1600000, .i32⟩
  | .hbm, ⟨50, _⟩ => ⟨S1x1600000, .i32⟩
  | .hbm, ⟨51, _⟩ => ⟨S1600000, .i32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S_, .f32⟩
  | .hbm, ⟨66, _⟩ => ⟨S1600000, .f32⟩
  | .hbm, ⟨67, _⟩ => ⟨S_, .f32⟩
  | .hbm, ⟨68, _⟩ => ⟨S100000, .f32⟩
  | .hbm, ⟨69, _⟩ => ⟨S1600000x1, .i32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000x1, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S100000x128, .f32⟩
  | .hbm, ⟨82, _⟩ => ⟨S100000x128, .f32⟩
  | .hbm, ⟨83, _⟩ => ⟨S_, .f32⟩
  | .hbm, ⟨84, _⟩ => ⟨S100000x128, .f32⟩
  | .hbm, ⟨85, _⟩ => ⟨S100000x128, .f32⟩
  | .hbm, ⟨86, _⟩ => ⟨S100000x64, .f32⟩
  | .hbm, ⟨87, _⟩ => ⟨S1x64, .f32⟩
  | .hbm, ⟨88, _⟩ => ⟨S100000x64, .f32⟩
  | .hbm, ⟨89, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_4 : Ref sig .tc := ⟨.hbm, 52, rfl⟩
abbrev main_v34 : Ref sig .tc := ⟨.hbm, 53, rfl⟩
abbrev main_v35 : Ref sig .tc := ⟨.hbm, 54, rfl⟩
abbrev main_c_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_7 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call1_cst : Ref sig .tc := ⟨.hbm, 83, rfl⟩
abbrev main_call1_v0 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.Payload.lean ====
/-
  The two fused layer bodies, each read at one entry of its block of rows, over the extended reals.

  A block of 2000 rows enters the first body as the mean-aggregated features `a`, the node's own features `x`,
  the two weight matrices and the bias row. Every change of float format is the identity here, so entry (p, q) of
  what the body stores is
      max ((∑ₖ a[p,k]·Wl[k,q]) + b[0,q] + (∑ₖ x[p,k]·Wr[k,q])) 0,
  the two matrix products into zero accumulators being plain sums over the contracted axis. The second body does
  the same to its block and then multiplies the result by the last weight matrix and adds the last bias row.
-/
import proofs.«101449_j39702677684854_1_alg».proof.Proof.Gen.KernelIdeal.Skeleton
import proofs.«101449_j39702677684854_1_alg».proof.Proof.LibMatmulAt
import Idealize.ShloMosaic.Lib.Pipeline.Value
import Idealize.ShloMosaic.Lib.ValueIdx
import Idealize.ShloMosaic.PureOps.Ideal.Laws

noncomputable section

namespace Cert.KernelIdeal.Block

open Idealize.ShloMosaic Idealize.ShloMosaic.ValueIdx Cert.KernelIdeal Cert.KernelIdeal.Gen
open scoped BigOperators

/-! ## Where the two contractions read their operands -/

theorem hid_l0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem hid_l1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem hid_r0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem hid_r1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

theorem out_l0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem out_l1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem out_r0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem out_r1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-! ## One layer on a block of rows -/

/-- Entry (p, q) of one layer's output on a block: the aggregated features through the left weights, plus the
    bias, plus the node's own features through the right weights, floored at zero. -/
def layerAt (a x : FVec Ideal S2000x128 .f32) (wl wr : FVec Ideal S128x128 .f32) (b : FVec Ideal S1x128 .f32)
    (p : Fin 2000) (q : Fin 128) : Ideal .f32 :=
  max ((∑ k : Fin 128, a (ix2 p k) * wl (ix2 k q)) + b (ix2 (0 : Fin 1) q) + (∑ k : Fin 128, x (ix2 p k) * wr (ix2 k q)))
    (FloatOps.ofBits .f32 0x00000000#32)

/-- A bias row broadcast down the rows of a block reads its own column. -/
theorem biasRow128_at (b : FVec Ideal S1x128 .f32) (p : Fin 2000) (q : Fin 128) :
    broadcastTo S2000x128 (shapeCast S1x128 b Facts₀.shapeCasts_S1x128_S1x128) Facts₀.broadcasts_S1x128_S2000x128 (ix2 p q) = b (ix2 (0 : Fin 1) q) := by
  rw [shapeCast_self]
  exact broadcastTo_apply b Facts₀.broadcasts_S1x128_S2000x128 (ix2 p q) (ix2 (0 : Fin 1) q) (fun a => by
    match a with
    | ⟨0, _⟩ => show (0 : Nat) = if (1 : Nat) = 1 then 0 else _; rw [if_pos rfl]
    | ⟨1, _⟩ => show q.val = if (128 : Nat) = 1 then 0 else q.val; rw [if_neg (by decide)])

theorem biasRow64_at (b : FVec Ideal S1x64 .f32) (p : Fin 2000) (q : Fin 64) :
    broadcastTo S2000x64 (shapeCast S1x64 b Facts₀.shapeCasts_S1x64_S1x64) Facts₀.broadcasts_S1x64_S2000x64 (ix2 p q) = b (ix2 (0 : Fin 1) q) := by
  rw [shapeCast_self]
  exact broadcastTo_apply b Facts₀.broadcasts_S1x64_S2000x64 (ix2 p q) (ix2 (0 : Fin 1) q) (fun a => by
    match a with
    | ⟨0, _⟩ => show (0 : Nat) = if (1 : Nat) = 1 then 0 else _; rw [if_pos rfl]
    | ⟨1, _⟩ => show q.val = if (64 : Nat) = 1 then 0 else q.val; rw [if_neg (by decide)])

/-- The first body's stored value at (p, q) is the layer at (p, q). -/
theorem pay0_at (a x : Vec Ideal S2000x128 .f32) (wl wr : Vec Ideal S128x128 .f32) (b : Vec Ideal S1x128 .f32)
    (p : Fin 2000) (q : Fin 128) :
    k0_pay1 (F := Ideal) a x wl wr b (ix2 p q) = layerAt a x wl wr b p q := by
  unfold k0_pay1 layerAt
  rw [maximumf_apply, addf_apply, addf_apply, broadcast_apply, biasRow128_at]
  simp only [matmul]
  rw [MatmulAt.matmul_zero_at dot_S2000x128_S128x128_S2000x128_1_0_0_1_n_n rfl rfl hid_l0 hid_l1 hid_r0 hid_r1,
      MatmulAt.matmul_zero_at dot_S2000x128_S128x128_S2000x128_1_0_0_1_n_n rfl rfl hid_l0 hid_l1 hid_r0 hid_r1]
  simp only [truncf_apply, shapeCast_self]

/-- The second body's stored value at (p, q): its layer's row p through the last weights, plus the last bias. -/
theorem pay1_at (a x : Vec Ideal S2000x128 .f32) (wl wr : Vec Ideal S128x128 .f32) (b : Vec Ideal S1x128 .f32)
    (wo : Vec Ideal S128x64 .f32) (bo : Vec Ideal S1x64 .f32) (p : Fin 2000) (q : Fin 64) :
    k1_pay1 (F := Ideal) a x wl wr b wo bo (ix2 p q)
      = (∑ k : Fin 128, layerAt a x wl wr b p k * wo (ix2 k q)) + bo (ix2 (0 : Fin 1) q) := by
  unfold k1_pay1
  rw [addf_apply, biasRow64_at]
  simp only [matmul]
  rw [MatmulAt.matmul_zero_at dot_S2000x128_S128x64_S2000x64_1_0_0_1_n_n rfl rfl out_l0 out_l1 out_r0 out_r1]
  refine congrArg (· + bo (ix2 (0 : Fin 1) q)) (Finset.sum_congr rfl fun k _ => ?_)
  rw [truncf_apply, truncf_apply]
  refine congrArg (· * wo (ix2 k q)) ?_
  have h := pay0_at a x wl wr b p k
  unfold k0_pay1 at h
  rw [← h]
  simp only [shapeCast_self]

end Cert.KernelIdeal.Block

end
-- ==== Proof.Spec.lean ====
/-
  The network as whole-array functions over the extended reals.

  `layer A X WL WR b` is one graph-convolution layer on all 100000 nodes: row r of the result is row r of the
  aggregated features `A` through the left weights, plus the bias, plus row r of the nodes' own features `X`
  through the right weights, floored at zero. `readout H WO bo` is the final affine map to 64 columns. Each is
  stated entry by entry, a matrix product being the sum over the 128 contracted columns.
-/
import Idealize.ShloMosaic.PureOps.Ideal
import Idealize.ShloMosaic.Lib.ValueIdx

noncomputable section

namespace Sage

open Idealize.ShloMosaic Idealize.ShloMosaic.ValueIdx
open scoped BigOperators

abbrev Nodes128 : Shape := ⟨2, ![100000, 128]⟩
abbrev Nodes64 : Shape := ⟨2, ![100000, 64]⟩
abbrev W128 : Shape := ⟨2, ![128, 128]⟩
abbrev W64 : Shape := ⟨2, ![128, 64]⟩

/-- One layer, entry (r, q): `max ((∑ₖ A[r,k]·WL[k,q]) + b[q] + (∑ₖ X[r,k]·WR[k,q])) 0`. -/
def layer (A X : FVec Ideal Nodes128 .f32) (WL WR : FVec Ideal W128 .f32) (b : Fin 128 → Ideal .f32) :
    FVec Ideal Nodes128 .f32 := fun i =>
  max ((∑ k : Fin 128, A (ix2 (⟨(i 0).val, (i 0).isLt⟩ : Fin 100000) k) * WL (ix2 k (⟨(i 1).val, (i 1).isLt⟩ : Fin 128)))
        + b ⟨(i 1).val, (i 1).isLt⟩
        + (∑ k : Fin 128, X (ix2 (⟨(i 0).val, (i 0).isLt⟩ : Fin 100000) k) * WR (ix2 k (⟨(i 1).val, (i 1).isLt⟩ : Fin 128))))
    (FloatOps.ofBits .f32 0x00000000#32)

/-- The final affine map, entry (r, q): `(∑ₖ H[r,k]·WO[k,q]) + bo[q]`. -/
def readout (H : FVec Ideal Nodes128 .f32) (WO : FVec Ideal W64 .f32) (bo : Fin 64 → Ideal .f32) :
    FVec Ideal Nodes64 .f32 := fun i =>
  (∑ k : Fin 128, H (ix2 (⟨(i 0).val, (i 0).isLt⟩ : Fin 100000) k) * WO (ix2 k (⟨(i 1).val, (i 1).isLt⟩ : Fin 64)))
    + bo ⟨(i 1).val, (i 1).isLt⟩

end Sage

end
-- ==== Proof.Region0Value.lean ====
/-
  What the first fused kernel leaves in its output array: one layer of the network on all 100000 nodes.

  The grid has 50 points; point t stages rows 2000·t … 2000·t + 1999 of the aggregated features and of the nodes'
  own features, the two weight matrices and the bias row whole, and writes back the same rows of the output. The
  body's value at entry (p, q) of the block is the layer at (p, q) of the block, so the written-back block is the
  block of the whole-array layer, and the 50 blocks tile the array.
-/
import proofs.«101449_j39702677684854_1_alg».proof.Proof.Gen.KernelIdeal.Frame
import proofs.«101449_j39702677684854_1_alg».proof.Proof.Payload
import proofs.«101449_j39702677684854_1_alg».proof.Proof.Spec
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

theorem zeros2 : (![0, 0] : Fin 2 → Nat) = fun _ => 0 := funext fun a => by fin_cases a <;> rfl

/-- The layer of the arrays the region finds: aggregated features, own features, weights, bias row. -/
def hidden (c : Dev nD) : FVec Ideal Sage.Nodes128 .f32 :=
  Sage.layer (V c main_v22) (V c main_arg0) (V c main_arg2) (V c main_arg4) (fun q => V c main_v23 (ix2 (0 : Fin 1) q))

/-- Where each window's block sits at point t: the two row-blocked inputs move with the output's row block, the
    weights and the bias row stay at block (0, 0), and the output's row block is one of the 50. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 49 ∧ win0_5.index t (1 : Fin 2) = 0 :=
  (by decide +kernel : ∀ t : Fin grid0.N, _)

/-- Every one of the 50 row blocks is some point's. -/
theorem idx_onto : ∀ q0 : Fin 50, ∃ t : Fin cfg0.N, win0_5.index t = ![q0.val, 0] :=
  (by decide +kernel : ∀ q0 : Fin 50, ∃ t : Fin grid0.N, win0_5.index t = ![q0.val, 0])

/-! ## The staged blocks, read where they sit in their arrays -/

abbrev blkA (c : Dev nD) (t : Fin cfg0.N) : Vec Ideal S2000x128 .f32 := iblk0 V c 0 t
abbrev blkX (c : Dev nD) (t : Fin cfg0.N) : Vec Ideal S2000x128 .f32 := iblk0 V c 1 t
abbrev blkWl (c : Dev nD) (t : Fin cfg0.N) : Vec Ideal S128x128 .f32 := iblk0 V c 2 t
abbrev blkB (c : Dev nD) (t : Fin cfg0.N) : Vec Ideal S1x128 .f32 := iblk0 V c 3 t
abbrev blkWr (c : Dev nD) (t : Fin cfg0.N) : Vec Ideal S128x128 .f32 := iblk0 V c 4 t

theorem blkA_at (c : Dev nD) (t : Fin cfg0.N) (p : Fin 2000) (k : Fin 128) (i : S100000x128.Idx)
    (h0 : (i 0).val = win0_5.index t (0 : Fin 2) * 2000 + p.val) (h1 : (i 1).val = k.val) :
    blkA V c t (ix2 p k) = V c main_v22 i := by
  obtain ⟨e00, e01, -⟩ := idx_facts t
  show V c main_v22 (((cfg0.win 0).blk t).view.emb (ix2 p k)) = V c main_v22 i
  refine congrArg (V c main_v22) (funext fun a => Fin.ext ?_)
  match a with
  | ⟨0, _⟩ => show win0_0.index t (0 : Fin 2) * 2000 + 1 * p.val = (i 0).val; omega
  | ⟨1, _⟩ => show win0_0.index t (1 : Fin 2) * 128 + 1 * k.val = (i 1).val; omega

theorem blkX_at (c : Dev nD) (t : Fin cfg0.N) (p : Fin 2000) (k : Fin 128) (i : S100000x128.Idx)
    (h0 : (i 0).val = win0_5.index t (0 : Fin 2) * 2000 + p.val) (h1 : (i 1).val = k.val) :
    blkX V c t (ix2 p k) = V c main_arg0 i := by
  obtain ⟨-, -, e10, e11, -⟩ := idx_facts t
  show V c main_arg0 (((cfg0.win 1).blk t).view.emb (ix2 p k)) = V c main_arg0 i
  refine congrArg (V c main_arg0) (funext fun a => Fin.ext ?_)
  match a with
  | ⟨0, _⟩ => show win0_1.index t (0 : Fin 2) * 2000 + 1 * p.val = (i 0).val; omega
  | ⟨1, _⟩ => show win0_1.index t (1 : Fin 2) * 128 + 1 * k.val = (i 1).val; omega

theorem blkWl_at (c : Dev nD) (t : Fin cfg0.N) (k : Fin 128) (q : Fin 128) (i : S128x128.Idx)
    (h0 : (i 0).val = k.val) (h1 : (i 1).val = q.val) :
    blkWl V c t (ix2 k q) = V c main_arg2 i := by
  obtain ⟨-, -, -, -, e20, e21, -⟩ := idx_facts t
  show V c main_arg2 (((cfg0.win 2).blk t).view.emb (ix2 k q)) = V c main_arg2 i
  refine congrArg (V c main_arg2) (funext fun a => Fin.ext ?_)
  match a with
  | ⟨0, _⟩ => show win0_2.index t (0 : Fin 2) * 128 + 1 * k.val = (i 0).val; omega
  | ⟨1, _⟩ => show win0_2.index t (1 : Fin 2) * 128 + 1 * q.val = (i 1).val; omega

theorem blkB_at (c : Dev nD) (t : Fin cfg0.N) (q : Fin 128) (i : S1x128.Idx)
    (h0 : (i 0).val = 0) (h1 : (i 1).val = q.val) :
    blkB V c t (ix2 (0 : Fin 1) q) = V c main_v23 i := by
  obtain ⟨-, -, -, -, -, -, e30, e31, -⟩ := idx_facts t
  show V c main_v23 (((cfg0.win 3).blk t).view.emb (ix2 (0 : Fin 1) q)) = V c main_v23 i
  refine congrArg (V c main_v23) (funext fun a => Fin.ext ?_)
  match a with
  | ⟨0, _⟩ => show win0_3.index t (0 : Fin 2) * 1 + 1 * 0 = (i 0).val; omega
  | ⟨1, _⟩ => show win0_3.index t (1 : Fin 2) * 128 + 1 * q.val = (i 1).val; omega

theorem blkWr_at (c : Dev nD) (t : Fin cfg0.N) (k : Fin 128) (q : Fin 128) (i : S128x128.Idx)
    (h0 : (i 0).val = k.val) (h1 : (i 1).val = q.val) :
    blkWr V c t (ix2 k q) = V c main_arg4 i := by
  obtain ⟨-, -, -, -, -, -, -, -, e40, e41, -⟩ := idx_facts t
  show V c main_arg4 (((cfg0.win 4).blk t).view.emb (ix2 k q)) = V c main_arg4 i
  refine congrArg (V c main_arg4) (funext fun a => Fin.ext ?_)
  match a with
  | ⟨0, _⟩ => show win0_4.index t (0 : Fin 2) * 128 + 1 * k.val = (i 0).val; omega
  | ⟨1, _⟩ => show win0_4.index t (1 : Fin 2) * 128 + 1 * q.val = (i 1).val; omega

/-- Entry (p, q) of the output's block at point t is entry (2000·(row block) + p, q) of the array. -/
theorem out_row (t : Fin cfg0.N) (p : Fin 2000) (q : Fin 128) :
    ((((cfg0.win 5).blk t).view.emb (ix2 p q)) 0).val = win0_5.index t (0 : Fin 2) * 2000 + p.val := by
  show win0_5.index t (0 : Fin 2) * 2000 + 1 * p.val = _; omega
theorem out_col (t : Fin cfg0.N) (p : Fin 2000) (q : Fin 128) :
    ((((cfg0.win 5).blk t).view.emb (ix2 p q)) 1).val = q.val := by
  obtain ⟨-, -, -, -, -, -, -, -, -, -, -, e51⟩ := idx_facts t
  show win0_5.index t (1 : Fin 2) * 128 + 1 * q.val = _; omega

/-! ## What a point writes back, the cover, the array -/

/-- Point t writes back its block of the whole-array layer. -/
theorem flushed (c : Dev nD) (t : Fin cfg0.N) :
    (dat0 V c).flushed 5 t = ((cfg0.win 5).blk t).view.read (Elt Ideal) (hidden V c) := by
  show (cfg0.win 5).cut (grid0.coords t) ((dat0 V c).after 5 t) = _
  rw [after0_5]
  unfold out0_5
  rw [View.canon_unit_zero zeros2]
  simp only [View.ld_unit_zero (S := S2000x128) zeros2, View.ld_unit_zero (S := S128x128) zeros2, View.ld_unit_zero (S := S1x128) zeros2]
  funext j
  obtain ⟨p, q, rfl⟩ : ∃ (p : Fin 2000) (q : Fin 128), j = ix2 p q := ⟨j 0, j 1, eq_ix2 j⟩
  show k0_pay1 (F := Ideal) (blkA V c t) (blkX V c t) (blkWl V c t) (blkWr V c t) (blkB V c t) (ix2 p q)
    = hidden V c (((cfg0.win 5).blk t).view.emb (ix2 p q))
  refine (Block.pay0_at (blkA V c t) (blkX V c t) (blkWl V c t) (blkWr V c t) (blkB V c t) p q).trans ?_
  obtain ⟨i, hi⟩ : ∃ i : S100000x128.Idx, i = ((cfg0.win 5).blk t).view.emb (ix2 p q) := ⟨_, rfl⟩
  have hr : (i 0).val = win0_5.index t (0 : Fin 2) * 2000 + p.val := by rw [hi]; exact out_row t p q
  have hc : (i 1).val = q.val := by rw [hi]; exact out_col t p q
  rw [← hi]
  unfold Block.layerAt hidden Sage.layer
  refine congrArg₂ max (congrArg₂ (· + ·) (congrArg₂ (· + ·) (Finset.sum_congr rfl fun k _ => ?_) ?_) (Finset.sum_congr rfl fun k _ => ?_)) rfl
  · exact congrArg₂ (· * ·) (blkA_at V c t p k (ix2 (⟨(i 0).val, (i 0).isLt⟩ : Fin 100000) k) hr rfl)
      (blkWl_at V c t k q (ix2 k (⟨(i 1).val, (i 1).isLt⟩ : Fin 128)) rfl hc)
  · exact blkB_at V c t q (ix2 (0 : Fin 1) (⟨(i 1).val, (i 1).isLt⟩ : Fin 128)) rfl hc
  · exact congrArg₂ (· * ·) (blkX_at V c t p k (ix2 (⟨(i 0).val, (i 0).isLt⟩ : Fin 100000) k) hr rfl)
      (blkWr_at V c t k q (ix2 k (⟨(i 1).val, (i 1).isLt⟩ : Fin 128)) rfl hc)

/-- An index of the array is in point t's block iff each coordinate is in the block's range on its axis. -/
theorem mem_blk (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v24).slice (win0_5.rect t)).set ↔ _
  rw [View.set_slice_whole, Rect.mem_set_unit]
  exact Iff.rfl

/-- The 50 blocks tile the array: row r is in the block of the point whose row block is r / 2000. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := idx_onto ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- After the region the output array holds the layer of the arrays the region found. -/
theorem final (c : Dev nD) : (dat0 V c).arrAt 5 cfg0.N = hidden V c :=
  (dat0 V c).arrAt_eq_of_cover 5 (hidden V c) (fun t _ => flushed V c t) cover

end Cert.KernelIdeal.Region0

end
-- ==== Proof.Region1Value.lean ====
/-
  What the second fused kernel leaves in its output array: the second layer of the network followed by the final
  affine map, on all 100000 nodes.

  Point t of the 50 stages rows 2000·t … 2000·t + 1999 of the aggregated hidden features and of the hidden
  features themselves, the layer's two weight matrices and bias row, and the last weight matrix and bias row,
  whole, and writes back the same rows of the 64-column output. Entry (p, q) of the written block is the layer's
  row p of the block through column q of the last weights plus the last bias, and the layer's row p of the block
  is the whole-array layer's row 2000·t + p; the 50 blocks tile the array.
-/
import proofs.«101449_j39702677684854_1_alg».proof.Proof.Gen.KernelIdeal.Frame
import proofs.«101449_j39702677684854_1_alg».proof.Proof.Payload
import proofs.«101449_j39702677684854_1_alg».proof.Proof.Spec
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

theorem zeros2 : (![0, 0] : Fin 2 → Nat) = fun _ => 0 := funext fun a => by fin_cases a <;> rfl

/-- The second layer of the arrays the region finds. -/
def hidden (c : Dev nD) : FVec Ideal Sage.Nodes128 .f32 :=
  Sage.layer (V c main_v47) (V c main_v24) (V c main_arg5) (V c main_arg7) (fun q => V c main_v48 (ix2 (0 : Fin 1) q))

/-- The network's output of the arrays the region finds: that layer through the last weights, plus the last bias. -/
def output (c : Dev nD) : FVec Ideal Sage.Nodes64 .f32 :=
  Sage.readout (hidden V c) (V c main_arg8) (fun q => V c main_v49 (ix2 (0 : Fin 1) q))

/-- Where each window's block sits at point t: the two row-blocked inputs move with the output's row block, the
    weights and the bias rows stay at block (0, 0), and the output's row block is one of the 50. -/
theorem idx_facts : ∀ t : Fin cfg1.N,
    win1_0.index t (0 : Fin 2) = win1_7.index t (0 : Fin 2) ∧ win1_0.index t (1 : Fin 2) = 0
    ∧ win1_1.index t (0 : Fin 2) = win1_7.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) ≤ 49 ∧ win1_7.index t (1 : Fin 2) = 0 :=
  (by decide +kernel : ∀ t : Fin grid1.N, _)

/-- Every one of the 50 row blocks is some point's. -/
theorem idx_onto : ∀ q0 : Fin 50, ∃ t : Fin cfg1.N, win1_7.index t = ![q0.val, 0] :=
  (by decide +kernel : ∀ q0 : Fin 50, ∃ t : Fin grid1.N, win1_7.index t = ![q0.val, 0])

/-! ## The staged blocks, read where they sit in their arrays -/

abbrev blkA (c : Dev nD) (t : Fin cfg1.N) : Vec Ideal S2000x128 .f32 := iblk1 V c 0 t
abbrev blkX (c : Dev nD) (t : Fin cfg1.N) : Vec Ideal S2000x128 .f32 := iblk1 V c 1 t
abbrev blkWl (c : Dev nD) (t : Fin cfg1.N) : Vec Ideal S128x128 .f32 := iblk1 V c 2 t
abbrev blkB (c : Dev nD) (t : Fin cfg1.N) : Vec Ideal S1x128 .f32 := iblk1 V c 3 t
abbrev blkWr (c : Dev nD) (t : Fin cfg1.N) : Vec Ideal S128x128 .f32 := iblk1 V c 4 t
abbrev blkWo (c : Dev nD) (t : Fin cfg1.N) : Vec Ideal S128x64 .f32 := iblk1 V c 5 t
abbrev blkBo (c : Dev nD) (t : Fin cfg1.N) : Vec Ideal S1x64 .f32 := iblk1 V c 6 t

theorem blkA_at (c : Dev nD) (t : Fin cfg1.N) (p : Fin 2000) (k : Fin 128) (i : S100000x128.Idx)
    (h0 : (i 0).val = win1_7.index t (0 : Fin 2) * 2000 + p.val) (h1 : (i 1).val = k.val) :
    blkA V c t (ix2 p k) = V c main_v47 i := by
  obtain ⟨e00, e01, -⟩ := idx_facts t
  show V c main_v47 (((cfg1.win 0).blk t).view.emb (ix2 p k)) = V c main_v47 i
  refine congrArg (V c main_v47) (funext fun a => Fin.ext ?_)
  match a with
  | ⟨0, _⟩ => show win1_0.index t (0 : Fin 2) * 2000 + 1 * p.val = (i 0).val; omega
  | ⟨1, _⟩ => show win1_0.index t (1 : Fin 2) * 128 + 1 * k.val = (i 1).val; omega

theorem blkX_at (c : Dev nD) (t : Fin cfg1.N) (p : Fin 2000) (k : Fin 128) (i : S100000x128.Idx)
    (h0 : (i 0).val = win1_7.index t (0 : Fin 2) * 2000 + p.val) (h1 : (i 1).val = k.val) :
    blkX V c t (ix2 p k) = V c main_v24 i := by
  obtain ⟨-, -, e10, e11, -⟩ := idx_facts t
  show V c main_v24 (((cfg1.win 1).blk t).view.emb (ix2 p k)) = V c main_v24 i
  refine congrArg (V c main_v24) (funext fun a => Fin.ext ?_)
  match a with
  | ⟨0, _⟩ => show win1_1.index t (0 : Fin 2) * 2000 + 1 * p.val = (i 0).val; omega
  | ⟨1, _⟩ => show win1_1.index t (1 : Fin 2) * 128 + 1 * k.val = (i 1).val; omega

theorem blkWl_at (c : Dev nD) (t : Fin cfg1.N) (k : Fin 128) (q : Fin 128) (i : S128x128.Idx)
    (h0 : (i 0).val = k.val) (h1 : (i 1).val = q.val) :
    blkWl V c t (ix2 k q) = V c main_arg5 i := by
  obtain ⟨-, -, -, -, e20, e21, -⟩ := idx_facts t
  show V c main_arg5 (((cfg1.win 2).blk t).view.emb (ix2 k q)) = V c main_arg5 i
  refine congrArg (V c main_arg5) (funext fun a => Fin.ext ?_)
  match a with
  | ⟨0, _⟩ => show win1_2.index t (0 : Fin 2) * 128 + 1 * k.val = (i 0).val; omega
  | ⟨1, _⟩ => show win1_2.index t (1 : Fin 2) * 128 + 1 * q.val = (i 1).val; omega

theorem blkB_at (c : Dev nD) (t : Fin cfg1.N) (q : Fin 128) (i : S1x128.Idx)
    (h0 : (i 0).val = 0) (h1 : (i 1).val = q.val) :
    blkB V c t (ix2 (0 : Fin 1) q) = V c main_v48 i := by
  obtain ⟨-, -, -, -, -, -, e30, e31, -⟩ := idx_facts t
  show V c main_v48 (((cfg1.win 3).blk t).view.emb (ix2 (0 : Fin 1) q)) = V c main_v48 i
  refine congrArg (V c main_v48) (funext fun a => Fin.ext ?_)
  match a with
  | ⟨0, _⟩ => show win1_3.index t (0 : Fin 2) * 1 + 1 * 0 = (i 0).val; omega
  | ⟨1, _⟩ => show win1_3.index t (1 : Fin 2) * 128 + 1 * q.val = (i 1).val; omega

theorem blkWr_at (c : Dev nD) (t : Fin cfg1.N) (k : Fin 128) (q : Fin 128) (i : S128x128.Idx)
    (h0 : (i 0).val = k.val) (h1 : (i 1).val = q.val) :
    blkWr V c t (ix2 k q) = V c main_arg7 i := by
  obtain ⟨-, -, -, -, -, -, -, -, e40, e41, -⟩ := idx_facts t
  show V c main_arg7 (((cfg1.win 4).blk t).view.emb (ix2 k q)) = V c main_arg7 i
  refine congrArg (V c main_arg7) (funext fun a => Fin.ext ?_)
  match a with
  | ⟨0, _⟩ => show win1_4.index t (0 : Fin 2) * 128 + 1 * k.val = (i 0).val; omega
  | ⟨1, _⟩ => show win1_4.index t (1 : Fin 2) * 128 + 1 * q.val = (i 1).val; omega

theorem blkWo_at (c : Dev nD) (t : Fin cfg1.N) (k : Fin 128) (q : Fin 64) (i : S128x64.Idx)
    (h0 : (i 0).val = k.val) (h1 : (i 1).val = q.val) :
    blkWo V c t (ix2 k q) = V c main_arg8 i := by
  obtain ⟨-, -, -, -, -, -, -, -, -, -, e50, e51, -⟩ := idx_facts t
  show V c main_arg8 (((cfg1.win 5).blk t).view.emb (ix2 k q)) = V c main_arg8 i
  refine congrArg (V c main_arg8) (funext fun a => Fin.ext ?_)
  match a with
  | ⟨0, _⟩ => show win1_5.index t (0 : Fin 2) * 128 + 1 * k.val = (i 0).val; omega
  | ⟨1, _⟩ => show win1_5.index t (1 : Fin 2) * 64 + 1 * q.val = (i 1).val; omega

theorem blkBo_at (c : Dev nD) (t : Fin cfg1.N) (q : Fin 64) (i : S1x64.Idx)
    (h0 : (i 0).val = 0) (h1 : (i 1).val = q.val) :
    blkBo V c t (ix2 (0 : Fin 1) q) = V c main_v49 i := by
  obtain ⟨-, -, -, -, -, -, -, -, -, -, -, -, e60, e61, -⟩ := idx_facts t
  show V c main_v49 (((cfg1.win 6).blk t).view.emb (ix2 (0 : Fin 1) q)) = V c main_v49 i
  refine congrArg (V c main_v49) (funext fun a => Fin.ext ?_)
  match a with
  | ⟨0, _⟩ => show win1_6.index t (0 : Fin 2) * 1 + 1 * 0 = (i 0).val; omega
  | ⟨1, _⟩ => show win1_6.index t (1 : Fin 2) * 64 + 1 * q.val = (i 1).val; omega

/-- Entry (p, q) of the output's block at point t is entry (2000·(row block) + p, q) of the array. -/
theorem out_row (t : Fin cfg1.N) (p : Fin 2000) (q : Fin 64) :
    ((((cfg1.win 7).blk t).view.emb (ix2 p q)) 0).val = win1_7.index t (0 : Fin 2) * 2000 + p.val := by
  show win1_7.index t (0 : Fin 2) * 2000 + 1 * p.val = _; omega
theorem out_col (t : Fin cfg1.N) (p : Fin 2000) (q : Fin 64) :
    ((((cfg1.win 7).blk t).view.emb (ix2 p q)) 1).val = q.val := by
  obtain ⟨-, -, -, -, -, -, -, -, -, -, -, -, -, -, -, e71⟩ := idx_facts t
  show win1_7.index t (1 : Fin 2) * 64 + 1 * q.val = _; omega

/-! ## What a point writes back, the cover, the array -/

/-- Row p of the layer on point t's blocks is row 2000·(row block) + p of the whole-array layer. -/
theorem layer_row (c : Dev nD) (t : Fin cfg1.N) (p : Fin 2000) (k : Fin 128) (r : Fin 100000)
    (hr : r.val = win1_7.index t (0 : Fin 2) * 2000 + p.val) :
    Block.layerAt (blkA V c t) (blkX V c t) (blkWl V c t) (blkWr V c t) (blkB V c t) p k = hidden V c (ix2 r k) := by
  unfold Block.layerAt hidden Sage.layer
  refine congrArg₂ max (congrArg₂ (· + ·) (congrArg₂ (· + ·) (Finset.sum_congr rfl fun k' _ => ?_) ?_) (Finset.sum_congr rfl fun k' _ => ?_)) rfl
  · exact congrArg₂ (· * ·) (blkA_at V c t p k' (ix2 (⟨((ix2 r k) 0).val, ((ix2 r k) 0).isLt⟩ : Fin 100000) k') hr rfl)
      (blkWl_at V c t k' k (ix2 k' (⟨((ix2 r k) 1).val, ((ix2 r k) 1).isLt⟩ : Fin 128)) rfl rfl)
  · exact blkB_at V c t k (ix2 (0 : Fin 1) (⟨((ix2 r k) 1).val, ((ix2 r k) 1).isLt⟩ : Fin 128)) rfl rfl
  · exact congrArg₂ (· * ·) (blkX_at V c t p k' (ix2 (⟨((ix2 r k) 0).val, ((ix2 r k) 0).isLt⟩ : Fin 100000) k') hr rfl)
      (blkWr_at V c t k' k (ix2 k' (⟨((ix2 r k) 1).val, ((ix2 r k) 1).isLt⟩ : Fin 128)) rfl rfl)

/-- Point t writes back its block of the whole-array output. -/
theorem flushed (c : Dev nD) (t : Fin cfg1.N) :
    (dat1 V c).flushed 7 t = ((cfg1.win 7).blk t).view.read (Elt Ideal) (output V c) := by
  show (cfg1.win 7).cut (grid1.coords t) ((dat1 V c).after 7 t) = _
  rw [after1_7]
  unfold out1_7
  rw [View.canon_unit_zero zeros2]
  simp only [View.ld_unit_zero (S := S2000x128) zeros2, View.ld_unit_zero (S := S128x128) zeros2, View.ld_unit_zero (S := S1x128) zeros2,
    View.ld_unit_zero (S := S128x64) zeros2, View.ld_unit_zero (S := S1x64) zeros2]
  funext j
  obtain ⟨p, q, rfl⟩ : ∃ (p : Fin 2000) (q : Fin 64), j = ix2 p q := ⟨j 0, j 1, eq_ix2 j⟩
  show k1_pay1 (F := Ideal) (blkA V c t) (blkX V c t) (blkWl V c t) (blkWr V c t) (blkB V c t) (blkWo V c t) (blkBo V c t) (ix2 p q)
    = output V c (((cfg1.win 7).blk t).view.emb (ix2 p q))
  refine (Block.pay1_at (blkA V c t) (blkX V c t) (blkWl V c t) (blkWr V c t) (blkB V c t) (blkWo V c t) (blkBo V c t) p q).trans ?_
  obtain ⟨i, hi⟩ : ∃ i : S100000x64.Idx, i = ((cfg1.win 7).blk t).view.emb (ix2 p q) := ⟨_, rfl⟩
  have hr : (i 0).val = win1_7.index t (0 : Fin 2) * 2000 + p.val := by rw [hi]; exact out_row t p q
  have hc : (i 1).val = q.val := by rw [hi]; exact out_col t p q
  rw [← hi]
  unfold output Sage.readout
  refine congrArg₂ (· + ·) (Finset.sum_congr rfl fun k _ => ?_) ?_
  · exact congrArg₂ (· * ·) (layer_row V c t p k (⟨(i 0).val, (i 0).isLt⟩ : Fin 100000) hr)
      (blkWo_at V c t k q (ix2 k (⟨(i 1).val, (i 1).isLt⟩ : Fin 64)) rfl hc)
  · exact blkBo_at V c t q (ix2 (0 : Fin 1) (⟨(i 1).val, (i 1).isLt⟩ : Fin 64)) rfl hc

/-- An index of the array is in point t's block iff each coordinate is in the block's range on its axis. -/
theorem mem_blk (t : Fin cfg1.N) (i : S100000x64.Idx) :
    i ∈ ((cfg1.win 7).blk t).view.set ↔ ∀ a : Fin 2, win1_7.index t a * S2000x64.size a ≤ (i a).val ∧ (i a).val < win1_7.index t a * S2000x64.size a + S2000x64.size a := by
  show i ∈ ((View.whole main_v50).slice (win1_7.rect t)).set ↔ _
  rw [View.set_slice_whole, Rect.mem_set_unit]
  exact Iff.rfl

/-- The 50 blocks tile the array: row r is in the block of the point whose row block is r / 2000. -/
theorem cover (i : S100000x64.Idx) :
    ∃ t : Fin cfg1.N, (cfg1.win 7).flush t = true ∧ i ∈ ((cfg1.win 7).blk t).view.set := by
  have hi0 : (i 0).val < 100000 := (i 0).isLt
  have hi1 : (i 1).val < 64 := (i 1).isLt
  obtain ⟨t, ht⟩ := idx_onto ⟨(i 0).val / 2000, by omega⟩
  have q0 : win1_7.index t (0 : Fin 2) = (i 0).val / 2000 := congrFun ht 0
  have q1 : win1_7.index t (1 : Fin 2) = 0 := congrFun ht 1
  refine ⟨t, flush1_7 t, ?_⟩
  rw [mem_blk]
  intro a
  match a with
  | ⟨0, _⟩ => show win1_7.index t (0 : Fin 2) * 2000 ≤ (i 0).val ∧ (i 0).val < win1_7.index t (0 : Fin 2) * 2000 + 2000; omega
  | ⟨1, _⟩ => show win1_7.index t (1 : Fin 2) * 64 ≤ (i 1).val ∧ (i 1).val < win1_7.index t (1 : Fin 2) * 64 + 64; omega

/-- After the region the output array holds the network's output of the arrays the region found. -/
theorem final (c : Dev nD) : (dat1 V c).arrAt 7 cfg1.N = output V c :=
  (dat1 V c).arrAt_eq_of_cover 7 (output V c) (fun t _ => flushed V c t) cover

end Cert.KernelIdeal.Region1

end
-- ==== Proof.Network.lean ====
/-
  The whole network as one function of its ten inputs.

  Mean aggregation over the edge list — gather the source rows, add them into their target rows, divide by the
  target's in-degree floored at one — is the same chain of host operations in both programs. It is carried here as
  ONE function `meanAgg` of a feature array and the edge list and is never opened: both sides apply it to equal
  arguments. The network is then
      h   = layer (meanAgg x e) x W1l W1r b1
      out = readout (layer (meanAgg h e) h W2l W2r b2) Wlin blin.
-/
import proofs.«101449_j39702677684854_1_alg».proof.Proof.Gen.ReferenceIdeal.Read
import proofs.«101449_j39702677684854_1_alg».proof.Proof.Spec

noncomputable section

namespace Sage

open Idealize.ShloMosaic Idealize.ShloMosaic.ValueIdx

abbrev Edges : Shape := ⟨2, ![2, 1600000]⟩
abbrev B128 : Shape := ⟨1, ![128]⟩
abbrev B64 : Shape := ⟨1, ![64]⟩

/-- Mean aggregation of the rows of `h` along the edges `e` (row 0 the sources, row 1 the targets): the host chain
    both programs run, as one function. -/
def meanAgg (h : (⟨Nodes128, .f32⟩ : BufTy).Contents (Elt Ideal)) (e : (⟨Edges, .i32⟩ : BufTy).Contents (Elt Ideal)) :
    (⟨Nodes128, .f32⟩ : BufTy).Contents (Elt Ideal) :=
  Cert.ReferenceIdeal.Read.val_main_v22 (F := Ideal) h e

/-- The network's output on all nodes. -/
def network (x : (⟨Nodes128, .f32⟩ : BufTy).Contents (Elt Ideal)) (e : (⟨Edges, .i32⟩ : BufTy).Contents (Elt Ideal))
    (w1l : (⟨W128, .f32⟩ : BufTy).Contents (Elt Ideal)) (b1 : (⟨B128, .f32⟩ : BufTy).Contents (Elt Ideal))
    (w1r w2l : (⟨W128, .f32⟩ : BufTy).Contents (Elt Ideal)) (b2 : (⟨B128, .f32⟩ : BufTy).Contents (Elt Ideal))
    (w2r : (⟨W128, .f32⟩ : BufTy).Contents (Elt Ideal)) (wo : (⟨W64, .f32⟩ : BufTy).Contents (Elt Ideal))
    (bo : (⟨B64, .f32⟩ : BufTy).Contents (Elt Ideal)) : FVec Ideal Nodes64 .f32 :=
  readout (layer (meanAgg (layer (meanAgg x e) x w1l w1r (fun q => b1 (ix1 q))) e)
      (layer (meanAgg x e) x w1l w1r (fun q => b1 (ix1 q))) w2l w2r (fun q => b2 (ix1 q))) wo (fun q => bo (ix1 q))

end Sage

end
-- ==== Proof.KernelValue.lean ====
/-
  The kernel program computes the network.

  @main is a stretch of host operations, the first fused kernel, a second stretch, the second fused kernel. The
  first stretch leaves the mean aggregation of the input features and the first bias as a row; the first kernel
  leaves the first layer; the second stretch aggregates that layer along the same edges and lays the two other
  biases out as rows; the second kernel leaves the second layer through the final affine map. No stretch and no
  kernel writes an argument, so every argument read along the way is the launch memory's.
-/
import proofs.«101449_j39702677684854_1_alg».proof.Proof.Gen.KernelIdeal.Frame
import proofs.«101449_j39702677684854_1_alg».proof.Proof.Region0Value
import proofs.«101449_j39702677684854_1_alg».proof.Proof.Region1Value
import proofs.«101449_j39702677684854_1_alg».proof.Proof.Network
import Idealize.ShloMosaic.Lib.StableHlo.Run
import Idealize.ShloMosaic.Lib.Pipeline.Value

set_option maxRecDepth 16384

noncomputable section

namespace Cert.KernelIdeal.Boundary

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-! ## A bias laid out as a row reads its own column -/

theorem row128 (x : S128.Idx → Ideal .f32) (q : Fin 128) :
    shapeCast S1x128 x Facts₀.shapeCasts_S128_S1x128 (ix2 (0 : Fin 1) q) = x (ix1 q) :=
  shapeCast_apply x Facts₀.shapeCasts_S128_S1x128 (ix2 (0 : Fin 1) q) (ix1 q)
    (by rewrite [Shape.rowMajor_val_one, Shape.rowMajor_val_two]; show q.val = 0 * 128 + q.val; omega)

theorem row64 (x : S64.Idx → Ideal .f32) (q : Fin 64) :
    shapeCast S1x64 x Facts₀.shapeCasts_S64_S1x64 (ix2 (0 : Fin 1) q) = x (ix1 q) :=
  shapeCast_apply x Facts₀.shapeCasts_S64_S1x64 (ix2 (0 : Fin 1) q) (ix1 q)
    (by rewrite [Shape.rowMajor_val_one, Shape.rowMajor_val_two]; show q.val = 0 * 64 + q.val; omega)

/-! ## Entering the first kernel -/

theorem V1_v22 (c : Dev nD) : V1 m ρ c main_v22
    = Sage.meanAgg (m ((c : Thread nD τ).loc main_arg0)) (m ((c : Thread nD τ).loc main_arg1)) := by
  show StableHlo.after hostOps0 (W0 m ρ c) (Proc.devRef .tc main_v22) = _
  after_results_simp
  rfl
theorem V1_v23 (c : Dev nD) : V1 m ρ c main_v23
    = shapeCast S1x128 (m ((c : Thread nD τ).loc main_arg3)) Facts₀.shapeCasts_S128_S1x128 := by
  show StableHlo.after hostOps0 (W0 m ρ c) (Proc.devRef .tc main_v23) = _
  after_results_simp
  rfl
theorem V1_arg0 (c : Dev nD) : V1 m ρ c main_arg0 = m ((c : Thread nD τ).loc main_arg0) := by
  show StableHlo.after hostOps0 (W0 m ρ c) (Proc.devRef .tc main_arg0) = _
  after_results_simp <;> rfl
theorem V1_arg2 (c : Dev nD) : V1 m ρ c main_arg2 = m ((c : Thread nD τ).loc main_arg2) := by
  show StableHlo.after hostOps0 (W0 m ρ c) (Proc.devRef .tc main_arg2) = _
  after_results_simp <;> rfl
theorem V1_arg4 (c : Dev nD) : V1 m ρ c main_arg4 = m ((c : Thread nD τ).loc main_arg4) := by
  show StableHlo.after hostOps0 (W0 m ρ c) (Proc.devRef .tc main_arg4) = _
  after_results_simp <;> rfl

/-- The first layer of the launch contents. -/
abbrev hidden (c : Dev nD) : FVec Ideal Sage.Nodes128 .f32 :=
  Sage.layer (Sage.meanAgg (m ((c : Thread nD τ).loc main_arg0)) (m ((c : Thread nD τ).loc main_arg1)))
    (m ((c : Thread nD τ).loc main_arg0)) (m ((c : Thread nD τ).loc main_arg2)) (m ((c : Thread nD τ).loc main_arg4))
    (fun q => m ((c : Thread nD τ).loc main_arg3) (ix1 q))

/-! ## Leaving the first kernel -/

/-- The first kernel leaves the first layer in its output array. -/
theorem W2_v24 (c : Dev nD) : W2 m ρ c (Proc.devRef .tc main_v24) = hidden m c := by
  have h : W2 m ρ c (Proc.devRef .tc main_v24) = (dat0 (V1 m ρ) c).arrAt 5 cfg0.N := W2_arr m ρ c 5
  rw [h, Region0.final (V1 m ρ) c]
  unfold Region0.hidden
  rw [V1_v22, V1_arg0, V1_arg2, V1_arg4, V1_v23]
  exact congrArg (Sage.layer _ _ _ _) (funext fun q => row128 _ q)

/-- An argument the first kernel does not stage is still the launch memory's when it exits. -/
theorem W2_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results_simp <;> rfl)
theorem W2_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results_simp <;> rfl)
theorem W2_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results_simp <;> rfl)
theorem W2_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results_simp <;> rfl)
theorem W2_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results_simp <;> rfl)
theorem W2_arg9 (c : Dev nD) : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    after_results_simp <;> rfl)

/-! ## Entering the second kernel -/

theorem V3_v47 (c : Dev nD) : V3 m ρ c main_v47
    = Sage.meanAgg (W2 m ρ c (Proc.devRef .tc main_v24)) (W2 m ρ c (Proc.devRef .tc main_arg1)) := by
  show StableHlo.after hostOps1 (W2 m ρ c) (Proc.devRef .tc main_v47) = _
  after_results_simp
  rfl
theorem V3_v24 (c : Dev nD) : V3 m ρ c main_v24 = W2 m ρ c (Proc.devRef .tc main_v24) := by
  show StableHlo.after hostOps1 (W2 m ρ c) (Proc.devRef .tc main_v24) = _
  after_results_simp <;> rfl
theorem V3_arg5 (c : Dev nD) : V3 m ρ c main_arg5 = W2 m ρ c (Proc.devRef .tc main_arg5) := by
  show StableHlo.after hostOps1 (W2 m ρ c) (Proc.devRef .tc main_arg5) = _
  after_results_simp <;> rfl
theorem V3_arg7 (c : Dev nD) : V3 m ρ c main_arg7 = W2 m ρ c (Proc.devRef .tc main_arg7) := by
  show StableHlo.after hostOps1 (W2 m ρ c) (Proc.devRef .tc main_arg7) = _
  after_results_simp <;> rfl
theorem V3_arg8 (c : Dev nD) : V3 m ρ c main_arg8 = W2 m ρ c (Proc.devRef .tc main_arg8) := by
  show StableHlo.after hostOps1 (W2 m ρ c) (Proc.devRef .tc main_arg8) = _
  after_results_simp <;> rfl
theorem V3_v48 (c : Dev nD) : V3 m ρ c main_v48
    = shapeCast S1x128 (W2 m ρ c (Proc.devRef .tc main_arg6)) Facts₀.shapeCasts_S128_S1x128 := by
  show StableHlo.after hostOps1 (W2 m ρ c) (Proc.devRef .tc main_v48) = _
  after_results_simp
  rfl
theorem V3_v49 (c : Dev nD) : V3 m ρ c main_v49
    = shapeCast S1x64 (W2 m ρ c (Proc.devRef .tc main_arg9)) Facts₀.shapeCasts_S64_S1x64 := by
  show StableHlo.after hostOps1 (W2 m ρ c) (Proc.devRef .tc main_v49) = _
  after_results_simp
  rfl

/-! ## The result -/

/-- The second kernel leaves the network of the launch contents in the result array. -/
theorem result (c : Dev nD) : W4 m ρ c (Proc.devRef .tc main_v50)
    = Sage.network (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := by
  have h : W4 m ρ c (Proc.devRef .tc main_v50) = (dat1 (V3 m ρ) c).arrAt 7 cfg1.N := W4_arr m ρ c 7
  rw [h, Region1.final (V3 m ρ) c]
  unfold Region1.output Region1.hidden
  rw [V3_v47, V3_v24, V3_arg5, V3_arg7, V3_arg8, V3_v48, V3_v49, W2_v24, W2_arg1, W2_arg5, W2_arg6, W2_arg7, W2_arg8, W2_arg9]
  unfold Sage.network
  exact congrArg₂ (fun b bo => Sage.readout (Sage.layer _ _ _ _ b) _ bo) (funext fun q => row128 _ q) (funext fun q => row64 _ q)

end Cert.KernelIdeal.Boundary

end
-- ==== Proof.RefValue.lean ====
/-
  The reference computes the network.

  Its run ends with the result at the last of its stages. Read entry by entry, the stages between two aggregations
  are a layer (two matrix products as sums over the 128 contracted columns, the bias row, the floor at zero); the
  second aggregation is the first one's chain applied to the hidden features; and the last three stages are the
  final affine map.
-/
import proofs.«101449_j39702677684854_1_alg».proof.Proof.Gen.ReferenceIdeal.Read
import proofs.«101449_j39702677684854_1_alg».proof.Proof.Network

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read
open scoped BigOperators

/-! ## The stages' index functions are (row, k), (k, column) and the column -/

theorem l23 (i : S100000x128.Idx) (k : Fin 128) : lidx_main_v23 i k = ix2 (⟨(i 0).val, (i 0).isLt⟩ : Fin 100000) k :=
  funext fun a => Fin.ext (by match a with | ⟨0, _⟩ => rfl | ⟨1, _⟩ => rfl)
theorem r23 (i : S100000x128.Idx) (k : Fin 128) : ridx_main_v23 i k = ix2 k (⟨(i 1).val, (i 1).isLt⟩ : Fin 128) :=
  funext fun a => Fin.ext (by match a with | ⟨0, _⟩ => rfl | ⟨1, _⟩ => rfl)
theorem l27 (i : S100000x128.Idx) (k : Fin 128) : lidx_main_v27 i k = ix2 (⟨(i 0).val, (i 0).isLt⟩ : Fin 100000) k :=
  funext fun a => Fin.ext (by match a with | ⟨0, _⟩ => rfl | ⟨1, _⟩ => rfl)
theorem r27 (i : S100000x128.Idx) (k : Fin 128) : ridx_main_v27 i k = ix2 k (⟨(i 1).val, (i 1).isLt⟩ : Fin 128) :=
  funext fun a => Fin.ext (by match a with | ⟨0, _⟩ => rfl | ⟨1, _⟩ => rfl)
theorem l53 (i : S100000x128.Idx) (k : Fin 128) : lidx_main_v53 i k = ix2 (⟨(i 0).val, (i 0).isLt⟩ : Fin 100000) k :=
  funext fun a => Fin.ext (by match a with | ⟨0, _⟩ => rfl | ⟨1, _⟩ => rfl)
theorem r53 (i : S100000x128.Idx) (k : Fin 128) : ridx_main_v53 i k = ix2 k (⟨(i 1).val, (i 1).isLt⟩ : Fin 128) :=
  funext fun a => Fin.ext (by match a with | ⟨0, _⟩ => rfl | ⟨1, _⟩ => rfl)
theorem l57 (i : S100000x128.Idx) (k : Fin 128) : lidx_main_v57 i k = ix2 (⟨(i 0).val, (i 0).isLt⟩ : Fin 100000) k :=
  funext fun a => Fin.ext (by match a with | ⟨0, _⟩ => rfl | ⟨1, _⟩ => rfl)
theorem r57 (i : S100000x128.Idx) (k : Fin 128) : ridx_main_v57 i k = ix2 k (⟨(i 1).val, (i 1).isLt⟩ : Fin 128) :=
  funext fun a => Fin.ext (by match a with | ⟨0, _⟩ => rfl | ⟨1, _⟩ => rfl)
theorem l60 (i : S100000x64.Idx) (k : Fin 128) : lidx_main_v60 i k = ix2 (⟨(i 0).val, (i 0).isLt⟩ : Fin 100000) k :=
  funext fun a => Fin.ext (by match a with | ⟨0, _⟩ => rfl | ⟨1, _⟩ => rfl)
theorem r60 (i : S100000x64.Idx) (k : Fin 128) : ridx_main_v60 i k = ix2 k (⟨(i 1).val, (i 1).isLt⟩ : Fin 64) :=
  funext fun a => Fin.ext (by match a with | ⟨0, _⟩ => rfl | ⟨1, _⟩ => rfl)
theorem c25 (i : S100000x128.Idx) : idx_main_v24 (idx_main_v25 i) = ix1 (⟨(i 1).val, (i 1).isLt⟩ : Fin 128) :=
  funext fun a => Fin.ext (by match a with | ⟨0, _⟩ => rfl)
theorem c55 (i : S100000x128.Idx) : idx_main_v54 (idx_main_v55 i) = ix1 (⟨(i 1).val, (i 1).isLt⟩ : Fin 128) :=
  funext fun a => Fin.ext (by match a with | ⟨0, _⟩ => rfl)
theorem c62 (i : S100000x64.Idx) : idx_main_v61 (idx_main_v62 i) = ix1 (⟨(i 1).val, (i 1).isLt⟩ : Fin 64) :=
  funext fun a => Fin.ext (by match a with | ⟨0, _⟩ => rfl)

/-! ## The stages -/

/-- The second aggregation is the first one's chain, applied to the hidden features. -/
theorem agg_hidden (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v52 (F := Ideal) x0 x1 x2 x3 x4 = Sage.meanAgg (val_main_v29 (F := Ideal) x0 x1 x2 x3 x4) x1 := rfl

/-- The first relu's stage is the first layer. -/
theorem hidden1 (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v29 (F := Ideal) x0 x1 x2 x3 x4 = Sage.layer (Sage.meanAgg x0 x1) x0 x2 x4 (fun q => x3 (ix1 q)) := by
  funext i
  rw [val_main_v29_apply, val_main_v28_apply, val_main_v26_apply, val_main_v23_apply, val_main_v25_apply, val_main_v24_apply,
    val_main_v27_apply, val_main_call0_v0_apply, val_main_call0_cst_apply]
  simp only [l23, r23, l27, r27, c25]
  rfl

/-- The second relu's stage is the second layer, of the hidden features and their aggregation. -/
theorem hidden2 (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 : (⟨S128x128, .f32⟩ : BufTy).Contents (Elt Ideal)) :
    val_main_v59 (F := Ideal) x0 x1 x2 x3 x4 x5 x6 x7
      = Sage.layer (Sage.meanAgg (val_main_v29 (F := Ideal) x0 x1 x2 x3 x4) x1) (val_main_v29 (F := Ideal) x0 x1 x2 x3 x4) x5 x7 (fun q => x6 (ix1 q)) := by
  funext i
  rw [val_main_v59_apply, val_main_v58_apply, val_main_v56_apply, val_main_v53_apply, val_main_v55_apply, val_main_v54_apply,
    val_main_v57_apply, val_main_call1_v0_apply, val_main_call1_cst_apply, agg_hidden]
  simp only [l53, r53, l57, r57, c55]
  rfl

/-- The last stage is the final affine map of the second layer. -/
theorem out_stage (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128x64, .f32⟩ : BufTy).Contents (Elt Ideal))
    (x9 : (⟨S64, .f32⟩ : BufTy).Contents (Elt Ideal)) :
    val_main_v63 (F := Ideal) x0 x1 x2 x3 x4 x5 x6 x7 x8 x9
      = Sage.readout (val_main_v59 (F := Ideal) x0 x1 x2 x3 x4 x5 x6 x7) x8 (fun q => x9 (ix1 q)) := by
  funext i
  rw [val_main_v63_apply, val_main_v60_apply, val_main_v62_apply, val_main_v61_apply]
  simp only [l60, r60, c62]
  rfl

/-- The reference's result is the network of its arguments. -/
theorem result (m : (ℓ : Loc nD τ sig) → Buf (Elt Ideal) ℓ) (c : Dev nD) :
    Cert.ReferenceIdeal.Value.res_main_v63 (F := Ideal) m c
      = Sage.network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) := by
  rw [val_main_v63_eq, out_stage, hidden2, hidden1]
  rfl

end Cert.ReferenceIdeal.RefValue

end
-- ==== Proof.lean ====
/-
  A two-layer graph network with mean aggregation, fused into two kernels, against its plain reference, over the
  extended reals.

  Both programs compute, for features x on 100000 nodes and an edge list e,
      h   = max (meanAgg(x, e)·W1l + b1 + x·W1r) 0
      out = max (meanAgg(h, e)·W2l + b2 + h·W2r) 0 · Wlin + blin,
  where meanAgg gathers source rows, adds them into their target rows and divides by the in-degree floored at one.
  The aggregation is the same chain of host operations in both programs and is never opened. The kernel program
  runs each layer on blocks of 2000 rows, rounding its operands to a shorter float format first — the identity
  here — and multiplying into zero accumulators; the reference multiplies whole arrays. Entry by entry both are the
  same sums over the 128 contracted columns, added in the same order, so no law beyond reading each operation at an
  index is needed and the finiteness of the inputs is not used.

  The three frames are the generated ones (the reference's is its generated run with the result dropped); the
  idealization rewrote nothing, so there is nothing to preserve; the value claim puts the kernel program's launch,
  with its result array named, beside the reference's run, both ending at the network of the arguments.
-/
import proofs.«101449_j39702677684854_1_alg».proof.Defs
import proofs.«101449_j39702677684854_1_alg».proof.Proof.Gen.Kernel
import proofs.«101449_j39702677684854_1_alg».proof.Proof.Gen.Kernel.Skeleton
import proofs.«101449_j39702677684854_1_alg».proof.Proof.Gen.Kernel.Launch
import proofs.«101449_j39702677684854_1_alg».proof.Proof.Gen.Kernel.Points
import proofs.«101449_j39702677684854_1_alg».proof.Proof.Gen.Kernel.Frame
import proofs.«101449_j39702677684854_1_alg».proof.Proof.Gen.KernelIdeal
import proofs.«101449_j39702677684854_1_alg».proof.Proof.Gen.KernelIdeal.Skeleton
import proofs.«101449_j39702677684854_1_alg».proof.Proof.Gen.KernelIdeal.Launch
import proofs.«101449_j39702677684854_1_alg».proof.Proof.Gen.KernelIdeal.Points
import proofs.«101449_j39702677684854_1_alg».proof.Proof.Gen.KernelIdeal.Frame
import proofs.«101449_j39702677684854_1_alg».proof.Proof.Gen.ReferenceIdeal
import proofs.«101449_j39702677684854_1_alg».proof.Proof.Gen.Pre_finite_inputs
import proofs.«101449_j39702677684854_1_alg».proof.Proof.Gen.ReferenceIdeal.Run
import proofs.«101449_j39702677684854_1_alg».proof.Proof.Gen.ReferenceIdeal.Read
import proofs.«101449_j39702677684854_1_alg».proof.Proof.KernelIdealRun
import proofs.«101449_j39702677684854_1_alg».proof.Proof.KernelValue
import proofs.«101449_j39702677684854_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the network of the arguments in their result arrays: the kernel program's launch ends
    with the result array at the last boundary's contents, which are the network of the launch memory's arguments;
    the reference's run ends at its last stage, which is the network of its own arguments; and the two memories
    agree on the arguments. -/
theorem algebraic : Cert.algebraic_KernelIdeal_ReferenceIdeal := by
  intro m ρ m' ρ' _ hagree
  refine ⟨fun c => Sage.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Boundary.result m ρ c), (h c).2⟩)
      (Cert.KernelIdeal.Launch.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.RefValue.result, e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
